-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S2048x1024 : Shape := ⟨2, ![2048, 1024]⟩
abbrev S2048x100x1024 : Shape := ⟨3, ![2048, 100, 1024]⟩
abbrev S128x128 : Shape := ⟨2, ![128, 128]⟩
abbrev S128x100x128 : Shape := ⟨3, ![128, 100, 128]⟩
abbrev S128x1x128 : Shape := ⟨3, ![128, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x100x1024, .f32⟩
  | .local _ .vmem, ⟨0, _⟩ => ⟨S128x128, .f32⟩
  | .local _ .vmem, ⟨1, _⟩ => ⟨S128x128, .f32⟩
  | .local _ .vmem, ⟨2, _⟩ => ⟨S128x100x128, .f32⟩
  | .local _ .vmem, ⟨3, _⟩ => ⟨S128x100x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x100x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S128x128_S128x128_0_0 : ∀ a, (![0, 0] : Fin 2 → Nat) a + S128x128.size a ≤ S128x128.size a
  h_S128x128 : 0 < S128x128.numel
  iota_S128x100x128_d1_w32 : S128x100x128.Iotas .tc 32 [1]
  shapeCasts_S128x128_S128x1x128 : S128x128.ShapeCasts S128x1x128
  broadcasts_S128x1x128_S128x100x128 : S128x1x128.Broadcasts S128x100x128
  natLt_1_32 : 1 < 32
  inb_S128x100x128_S128x100x128_0_0_0 : ∀ a, (![0, 0, 0] : Fin 3 → Nat) a + S128x100x128.size a ≤ S128x100x128.size a
  h_S128x100x128 : 0 < S128x100x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S2048x1024.size a
  hwx0_0 : ∀ i : grid0.Coords, EltTy.bits .f32 = 32 ∨ (Rect.block (s := S2048x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x100x128.size a ≤ S2048x100x1024.size a
  hwx0_1 : ∀ i : grid0.Coords, EltTy.bits .f32 = 32 ∨ (Rect.block (s := S2048x100x1024) S128x100x128.size (cc0_transform_1 i) (hinb0_1 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x100x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S100 : Shape := ⟨1, ![100]⟩
abbrev S2048x1x1024 : Shape := ⟨3, ![2048, 1, 1024]⟩
abbrev S1x100x1 : Shape := ⟨3, ![1, 100, 1]⟩
abbrev S2048x100x1024 : Shape := ⟨3, ![2048, 100, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .i32⟩
  | .hbm, ⟨8, _⟩ => ⟨S100, .i32⟩
  | .hbm, ⟨9, _⟩ => ⟨S2048x1x1024, .i32⟩
  | .hbm, ⟨10, _⟩ => ⟨S1x100x1, .i32⟩
  | .hbm, ⟨11, _⟩ => ⟨S2048x100x1024, .i32⟩
  | .hbm, ⟨12, _⟩ => ⟨S2048x100x1024, .i32⟩
  | .hbm, ⟨13, _⟩ => ⟨S2048x100x1024, .i1⟩
  | .hbm, ⟨14, _⟩ => ⟨S2048x100x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  bcast_S2048x1024_S2048x1x1024_0_2 : S2048x1024.BroadcastsInDim S2048x1x1024 (![0, 2] : Fin 2 → Fin S2048x1x1024.rank)
  bcast_S100_S1x100x1_1 : S100.BroadcastsInDim S1x100x1 (![1] : Fin 1 → Fin S1x100x1.rank)
  bcast_S2048x1x1024_S2048x100x1024_0_1_2 : S2048x1x1024.BroadcastsInDim S2048x100x1024 (![0, 1, 2] : Fin 3 → Fin S2048x100x1024.rank)
  bcast_S1x100x1_S2048x100x1024_0_1_2 : S1x100x1.BroadcastsInDim S2048x100x1024 (![0, 1, 2] : Fin 3 → Fin S2048x100x1024.rank)

variable [Facts₀]

class Facts : Prop extends Facts₀ where

variable [Facts]
-- ==== Proof.SpikeSpec.lean ====
/-
  LATENCY ENCODING as one function of the input, index by index.

  An input value `v` (a firing rate in [0, 1] where the encoder is used, any extended real here) is given the SPIKE TIME
  `⌊(1 − v) · 100⌋`, read as a 32-bit word by the float-to-integer conversion; the spike train over 100 time steps
  has a one exactly at that step: entry `(b, t, f)` of the train is `1` when the spike time of `x[b, f]` is the word `t`,
  and `0` otherwise. A spike time that is no step below 100 (the value 100 itself at `v = 0`, or whatever the
  conversion gives an infinity) meets no `t` and leaves its whole time axis zero. Nothing here is arithmetic on the
  reals beyond the one subtraction and the one product inside the spike time, and both programs spell those the same
  way, so no law of the extended reals is needed and the input's finiteness is never used.
-/
import Idealize.ShloMosaic.PureOps.Ideal
import Idealize.ShloMosaic.Lib.ValueIdx
import Idealize.ShloMosaic.Lib.KernelVsHost

noncomputable section

namespace Cert.Spike

open Idealize.ShloMosaic Idealize.ShloMosaic.ValueIdx

variable {F : FTy → Type} [FloatOps F]

/-- The spike time of one input value: `(1 − v) · 100` converted to a signed 32-bit word. -/
def spikeTime (v : F .f32) : BitVec 32 :=
  FloatOps.fptosi 32 (FloatOps.mulf (FloatOps.subf (FloatOps.ofBits .f32 0x3F800000#32) v) (FloatOps.ofBits .f32 0x42C80000#32))

/-- Whether the value `v` spikes at time step `t`: its spike time is the word `t`. -/
def hit (v : F .f32) (t : Nat) : BitVec 1 := IntOp.cmpi .eq (spikeTime v) (BitVec.ofNat 32 t)

/-- The spike train of a whole `[2048, 1024]` input: at `(b, t, f)` the bit "`x[b, f]` spikes at `t`" as a float. -/
def train (x : (⟨2, ![2048, 1024]⟩ : Shape).Idx → F .f32) : (⟨3, ![2048, 100, 1024]⟩ : Shape).Idx → F .f32 :=
  fun i => FloatOps.uitofp .f32 (hit (x (ix2 (i 0) (i 2))) (i 1).val)

/-- A bit widened to a 32-bit word and converted as a signed integer is the bit converted as an unsigned one: the word is
    `0` or `1`, and its sign bit is clear. -/
theorem sitofp_setWidth_bit (b : BitVec 1) :
    (FloatOps.sitofp .f32 (b.setWidth 32) : Ideal .f32) = FloatOps.uitofp .f32 b := by
  show ((((b.setWidth 32).toInt : ℤ) : ℝ) : EReal) = (((b.toNat : ℕ) : ℝ) : EReal)
  rw [toInt_setWidth_bit]
  norm_cast

end Cert.Spike

end
-- ==== Proof.LibMiddleAxis.lean ====
/-
  A MIDDLE AXIS INSERTED INTO A MATRIX, read at an index given by coordinates.

  A matrix `[a, b]` viewed as `[a, 1, b]` (a shape cast: the row-major position of `(i, 0, j)` in the longer shape is
  `(i · 1 + 0) · b + j = i · b + j`, the position of `(i, j)` in the matrix), and that view repeated `n` times along the
  new axis to `[a, n, b]` (a broadcast: the middle coordinate of the result is forgotten, the outer two are kept).
  Together they are the "keep the rows and the columns, add an axis between them" step: entry `(i, t, j)` of the
  result is entry `(i, j)` of the matrix, for every `t`.
-/
import Idealize.ShloMosaic.Lib.Pipeline.Value
import Idealize.ShloMosaic.Lib.ValueIdx

namespace Cert.LibMiddleAxis

open Idealize.ShloMosaic Idealize.ShloMosaic.ValueIdx

variable {α : Type}

/-- An `[a, b]` array cast to `[a, 1, b]` reads, at `(i, u, j)`, the operand at `(i, j)`: the unit coordinate `u` is
    `0`, so both row-major positions are `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, n, b]` reads, at `(i, t, j)`, the operand at `(i, 0, j)`: the unit axis is
    read at `0` whatever `t` is, and an outer axis of extent `1` has only the coordinate `0` to read. -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (t : Fin n) (j : Fin b) :
    broadcastTo ⟨3, ![a, n, b]⟩ v h (ix3 i t j) = v (ix3 i (0 : Fin 1) j) := by
  refine broadcastTo_apply v h (ix3 i t j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The two steps together: entry `(i, t, j)` of a matrix given a middle axis of extent `n` is entry `(i, j)` of the
    matrix. -/
theorem broadcastTo_shapeCast_apply {a n b : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, n, b]⟩)
    (i : Fin a) (t : Fin n) (j : Fin b) :
    broadcastTo ⟨3, ![a, n, b]⟩ (shapeCast ⟨3, ![a, 1, b]⟩ x hc) hb (ix3 i t j) = x (ix2 i j) := by
  rw [broadcastTo_a1b_anb_apply, shapeCast_ab_a1b_apply]

end Cert.LibMiddleAxis
-- ==== Proof.KernelBody.lean ====
/-
  THE KERNEL BODY'S ONE STORE, read at an index.

  One grid point loads a `[128, 128]` tile `v` of the input and stores a `[128, 100, 128]` tile. Entry `(a, t, c)` of the
  stored tile is the bit "the spike time of `v[a, c]` is `t`" as a float: the spike times are computed on the matrix
  tile, given a middle axis of extent 100 (a cast to `[128, 1, 128]`, then a broadcast), compared with the counter
  along that middle axis, and the bit is widened to a 32-bit word before it is converted — which, the word being
  `0` or `1`, is the conversion of the bit itself.
-/
import proofs.«118292_j78125455114738_1_alg».proof.Proof.Gen.KernelIdeal.Skeleton
import proofs.«118292_j78125455114738_1_alg».proof.Proof.SpikeSpec
import proofs.«118292_j78125455114738_1_alg».proof.Proof.LibMiddleAxis

noncomputable section

namespace Cert.KernelIdeal.Body

open Cert.KernelIdeal Cert.KernelIdeal.Gen Idealize.ShloMosaic Idealize.ShloMosaic.ValueIdx

/-- The stored tile at `(a, t, c)`: does `v[a, c]` spike at step `t`? -/
theorem pay_apply (v : Vec Ideal S128x128 .f32) (a : Fin 128) (t : Fin 100) (c : Fin 128) :
    k0_pay1 (F := Ideal) v (ix3 a t c) = FloatOps.uitofp .f32 (Cert.Spike.hit (F := Ideal) (v (ix2 a c)) t.val) := by
  unfold k0_pay1
  dsimp only
  rw [sitofp_extui_eq_uitofp]
  show FloatOps.uitofp .f32 (IntOp.cmpi .eq
      (broadcastTo S128x100x128 (shapeCast S128x1x128 _ shapeCasts_S128x128_S128x1x128) broadcasts_S128x1x128_S128x100x128 (ix3 a t c))
      (iota .tc S128x100x128 32 [1] iota_S128x100x128_d1_w32 (ix3 a t c))) = _
  rw [iota_single_apply, Cert.LibMiddleAxis.broadcastTo_shapeCast_apply]
  rfl

/-- The same at any index of the stored tile against any index of the whole train: the tile's entry is the train's
    when the tile's matrix entry is the input's there and the two time coordinates agree. -/
theorem pay_eq_train (v : Vec Ideal S128x128 .f32) (x : (⟨2, ![2048, 1024]⟩ : Shape).Idx → Ideal .f32)
    (y : S128x100x128.Idx) (i : (⟨3, ![2048, 100, 1024]⟩ : Shape).Idx)
    (hv : v (ix2 (y 0) (y 2)) = x (ix2 (i 0) (i 2))) (ht : (y 1).val = (i 1).val) :
    k0_pay1 (F := Ideal) v y = Cert.Spike.train (F := Ideal) x i := by
  obtain ⟨a, t, c, rfl⟩ : ∃ (a : Fin 128) (t : Fin 100) (c : Fin 128), y = ix3 a t c := ⟨y 0, y 1, y 2, eq_ix3 y⟩
  have hv' : v (ix2 a c) = x (ix2 (i 0) (i 2)) := hv
  have ht' : t.val = (i 1).val := ht
  rw [pay_apply, hv', ht']
  rfl

end Cert.KernelIdeal.Body

end
-- ==== Proof.KernelValue.lean ====
/-
  FROM THE TILES TO THE WHOLE ARRAY.

  The grid is `16 × 8`: point `(p, q)` reads tile `(p, q)` of the `[2048, 1024]` input (rows `128 p …`, columns `128 q …`)
  and writes block `(p, 0, q)` of the `[2048, 100, 1024]` output — the same rows and columns, with the whole time axis.
  So what a point writes back is the spike train of the WHOLE input read through the point's block: entry `(a, t, c)` of
  the block is the bit for `x[128 p + a, 128 q + c]` and step `t`. The `128` blocks tile the output (every index
  `(b, t, f)` lies in the block of point `(b / 128, f / 128)`), so after the run the output array is the train.
-/
import proofs.«118292_j78125455114738_1_alg».proof.Proof.Gen.KernelIdeal.Value
import proofs.«118292_j78125455114738_1_alg».proof.Proof.KernelBody

set_option maxRecDepth 16384

noncomputable section

namespace Cert.KernelIdeal.TrainValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The two index maps, decided over the 128 grid points: the input's tile row and column are the output block's
    outer and inner block indices, the output's time block index is `0`, and the block indices stay in range. -/
theorem tile_of_block : ∀ t : Fin cfg0.N, win0_0.index t (0 : Fin 2) = win0_1.index t (0 : Fin 3)
    ∧ win0_0.index t (1 : Fin 2) = win0_1.index t (2 : Fin 3)
    ∧ win0_1.index t (1 : Fin 3) = 0
    ∧ win0_1.index t (0 : Fin 3) ≤ 15 ∧ win0_1.index t (2 : Fin 3) ≤ 7 :=
  (by decide +kernel : ∀ t : Fin grid0.N, _)

/-- Every output block `(p, 0, q)` is some point's. -/
theorem block_onto : ∀ (p : Fin 16) (q : Fin 8), ∃ t : Fin cfg0.N, win0_1.index t = ![p.val, 0, q.val] :=
  (by decide +kernel : ∀ (p : Fin 16) (q : Fin 8), ∃ t : Fin grid0.N, win0_1.index t = ![p.val, 0, q.val])

/-- What point `t` writes back is block `t` of the train of the whole input. -/
theorem flushed_eq (c : Dev nD) (t : Fin cfg0.N) :
    (dats m 0 c).flushed 1 t = ((cfg0.win 1).blk t).view.read (Elt Ideal) (Cert.Spike.train (F := Ideal) (V m c main_arg0)) := by
  rw [Cert.KernelIdeal.Value.flushed1]
  unfold out0_1
  rw [View.canon_unit_zero zeros3]
  simp only [View.ld_unit_zero (S := S128x128) zeros2]
  obtain ⟨e0, e1, e2, -, -⟩ := tile_of_block t
  funext j
  show k0_pay1 (F := Ideal) (iblk m c 0 t) ((cfg0.win 1).xinj (grid0.coords t) j)
    = Cert.Spike.train (F := Ideal) (V m c main_arg0) (((cfg0.win 1).blk t).view.emb j)
  refine Cert.KernelIdeal.Body.pay_eq_train (iblk m c 0 t) (V m c main_arg0) ((cfg0.win 1).xinj (grid0.coords t) j)
    (((cfg0.win 1).blk t).view.emb j) ?_ ?_
  · show V m c main_arg0 (((cfg0.win 0).blk t).view.emb (ix2 ((cfg0.win 1).xinj (grid0.coords t) j 0) ((cfg0.win 1).xinj (grid0.coords t) j 2)))
      = V m c main_arg0 (ix2 ((((cfg0.win 1).blk t).view.emb j) 0) ((((cfg0.win 1).blk t).view.emb j) 2))
    refine congrArg (V m c main_arg0) (funext fun a => Fin.ext ?_)
    match a with
    | ⟨0, _⟩ =>
      show win0_0.index t (0 : Fin 2) * 128 + 1 * (j 0).val = win0_1.index t (0 : Fin 3) * 128 + 1 * (j 0).val
      omega
    | ⟨1, _⟩ =>
      show win0_0.index t (1 : Fin 2) * 128 + 1 * (j 2).val = win0_1.index t (2 : Fin 3) * 128 + 1 * (j 2).val
      omega
  · show (j 1).val = win0_1.index t (1 : Fin 3) * 100 + 1 * (j 1).val
    omega

/-- An index of the output is in point `t`'s block iff each coordinate is in the block's range on its axis. -/
theorem mem_block (t : Fin cfg0.N) (i : S2048x100x1024.Idx) :
    i ∈ ((cfg0.win 1).blk t).view.set ↔ ∀ a : Fin 3, win0_1.index t a * S128x100x128.size a ≤ (i a).val ∧ (i a).val < win0_1.index t a * S128x100x128.size a + S128x100x128.size a := by
  show i ∈ ((View.whole main_v0).slice (win0_1.rect t)).set ↔ _
  rw [View.set_slice_whole, Rect.mem_set_unit]
  exact Iff.rfl

/-- Every index `(b, t, f)` of the output lies in the block of the point with block indices `(b / 128, 0, f / 128)`. -/
theorem cover (i : S2048x100x1024.Idx) :
    ∃ t : Fin cfg0.N, (cfg0.win 1).flush t = true ∧ i ∈ ((cfg0.win 1).blk t).view.set := by
  have h0 : (i 0).val < 2048 := (i 0).isLt
  have h1 : (i 1).val < 100 := (i 1).isLt
  have h2 : (i 2).val < 1024 := (i 2).isLt
  obtain ⟨t, ht⟩ := block_onto ⟨(i 0).val / 128, by omega⟩ ⟨(i 2).val / 128, by omega⟩
  have q0 : win0_1.index t (0 : Fin 3) = (i 0).val / 128 := congrFun ht 0
  have q1 : win0_1.index t (1 : Fin 3) = 0 := congrFun ht 1
  have q2 : win0_1.index t (2 : Fin 3) = (i 2).val / 128 := congrFun ht 2
  refine ⟨t, flush0_1 t, ?_⟩
  rw [mem_block]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 100 ≤ (i 1).val ∧ (i 1).val < win0_1.index t (1 : Fin 3) * 100 + 100; omega
  | ⟨2, _⟩ => show win0_1.index t (2 : Fin 3) * 128 ≤ (i 2).val ∧ (i 2).val < win0_1.index t (2 : Fin 3) * 128 + 128; omega

/-- After the run the output array is the spike train of the input as launched. -/
theorem final (c : Dev nD) : (dats m 0 c).arrAt 1 cfg0.N = Cert.Spike.train (F := Ideal) (m ((c : Thread nD τ).loc main_arg0)) :=
  (dats m 0 c).arrAt_eq_of_cover 1 (Cert.Spike.train (F := Ideal) (V m c main_arg0)) (fun t _ => flushed_eq m c t) cover

/-- The kernel's run, read: the result is the train of the argument, the argument unchanged. -/
theorem run : θ_run defs (onTc (τ := τ) (main (F := Ideal))) ⟨m, fun _ => 0, ρ⟩ fun r => ∀ c : Dev nD,
      r.2.mem ((c : Thread nD τ).loc main_v0) = Cert.Spike.train (F := Ideal) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.TrainValue

end
-- ==== Proof.RefIsTrain.lean ====
/-
  THE REFERENCE COMPUTES THE SPIKE TRAIN.

  The host program computes the spike times on the whole `[2048, 1024]` input, lays them along axes 0 and 2 of a
  `[2048, 1, 1024]` array and then of the `[2048, 100, 1024]` result shape, lays the counter `0, …, 99` along axis 1, compares,
  and converts the bit. Read at an index `(b, t, f)`, operation by operation, that is the bit "the spike time of
  `x[b, f]` is `t`" as a float: the train.
-/
import proofs.«118292_j78125455114738_1_alg».proof.Proof.Gen.ReferenceIdeal.Read
import proofs.«118292_j78125455114738_1_alg».proof.Proof.SpikeSpec

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The two broadcasts of the spike times read the input at `(b, f)`. -/
theorem idx_times (i : S2048x100x1024.Idx) : idx_main_v6 (idx_main_v8 i) = ix2 (i 0) (i 2) :=
  funext fun a => Fin.ext (by match a with | ⟨0, _⟩ => rfl | ⟨1, _⟩ => rfl)

/-- The reference's last stage is the train of its argument. -/
theorem result_eq_train (x : (⟨S2048x1024, .f32⟩ : BufTy).Contents (Elt F)) :
    val_main_v11 (F := F) x = Cert.Spike.train x := by
  funext i
  rw [val_main_v11_apply, val_main_v10_apply, val_main_v8_apply, val_main_v6_apply, val_main_v4_apply, val_main_v3_apply,
    val_main_v1_apply, val_main_v0_apply, val_main_cst_apply, val_main_v2_apply, val_main_cst_0_apply, val_main_v9_apply,
    val_main_v7_apply, val_main_v5_apply, idx_times]
  rfl

end Cert.ReferenceIdeal.RefValue

end
-- ==== Proof.lean ====
/-
  A LATENCY SPIKE ENCODER: both programs compute, for an input `x : f32[2048, 1024]`, the train `f32[2048, 100, 1024]` whose
  entry `(b, t, f)` is `1` when the spike time `⌊(1 − x[b, f]) · 100⌋` (as the float-to-int32 conversion reads it) is the
  step `t`, and `0` otherwise (Proof/SpikeSpec.lean).

  The kernel does it tile by tile on a `16 × 8` grid: a `[128, 128]` tile of `x` gives the `[128, 100, 128]` block over the same
  rows and columns, the spike times laid along a new middle axis and compared with the step counter
  (Proof/KernelBody.lean: the block at an index; Proof/KernelValue.lean: the blocks tile the output, so the array after
  the run is the train). The reference does it in one piece with host broadcasts (Proof/RefIsTrain.lean). The two spell
  `(1 − x) · 100` with the same two constants in the same order and convert with the same conversion, so the spike times
  are one function on every extended real; the only difference of spelling is the last step — the kernel widens the
  compared bit to a 32-bit word and converts that as a signed integer, the reference converts the bit as an unsigned
  one — and a word that is `0` or `1` reads the same either way. No law of real arithmetic is used, so the inputs'
  finiteness is never opened.

  The three frames are the programs' runs with the result forgotten; the idealization rewrote nothing, so `preserves`
  has nothing to state.
-/
import proofs.«118292_j78125455114738_1_alg».proof.Defs
import proofs.«118292_j78125455114738_1_alg».proof.Proof.Gen.Kernel
import proofs.«118292_j78125455114738_1_alg».proof.Proof.Gen.Kernel.Frame
import proofs.«118292_j78125455114738_1_alg».proof.Proof.Gen.KernelIdeal
import proofs.«118292_j78125455114738_1_alg».proof.Proof.Gen.KernelIdeal.Frame
import proofs.«118292_j78125455114738_1_alg».proof.Proof.Gen.KernelIdeal.Value
import proofs.«118292_j78125455114738_1_alg».proof.Proof.Gen.ReferenceIdeal
import proofs.«118292_j78125455114738_1_alg».proof.Proof.Gen.ReferenceIdeal.Run
import proofs.«118292_j78125455114738_1_alg».proof.Proof.Gen.ReferenceIdeal.Read
import proofs.«118292_j78125455114738_1_alg».proof.Proof.Gen.Pre_finite_inputs
import proofs.«118292_j78125455114738_1_alg».proof.Proof.KernelValue
import proofs.«118292_j78125455114738_1_alg».proof.Proof.RefIsTrain
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, the kernel's output array and the reference's result are both the spike train of `x`. -/
theorem algebraic : Cert.algebraic_KernelIdeal_ReferenceIdeal := by
  intro m ρ m' ρ' _ hagree
  refine ⟨_, Cert.KernelIdeal.TrainValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq_train, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
